-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x512 : Shape := ⟨2, ![512, 512]⟩
abbrev S512 : Shape := ⟨1, ![512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S1024x512 .f32) (main_arg1 : FVec F S512x512 .f32) (main_arg2 : FVec F S512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S1024x512 : Shape := ⟨2, ![1024, 512]⟩
abbrev S512x512 : Shape := ⟨2, ![512, 512]⟩
abbrev S512 : Shape := ⟨1, ![512]⟩
abbrev S128x128 : Shape := ⟨2, ![128, 128]⟩
abbrev S128 : Shape := ⟨1, ![128]⟩
abbrev S128x1x128 : Shape := ⟨3, ![128, 1, 128]⟩
abbrev S1x128x128 : Shape := ⟨3, ![1, 128, 128]⟩
abbrev S128x128x128 : Shape := ⟨3, ![128, 128, 128]⟩
abbrev S1x128 : Shape := ⟨2, ![1, 128]⟩

abbrev nBuf : Space → Nat
  | .hbm => 4
  | .vmem => 9
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S1024x512, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128, .f32⟩
  | .local _ .vmem, ⟨5, _⟩ => ⟨S128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  inb_S128_S128_0 : ∀ a, (![0] : Fin 1 → Nat) a + S128.size a ≤ S128.size a
  h_S128 : 0 < S128.numel
  shapeCasts_S128_S1x128 : S128.ShapeCasts S1x128
  broadcasts_S1x128_S128x128 : S1x128.Broadcasts S128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S1024x512.size a
  hwx0_0 : ∀ i : grid0.Coords, EltTy.bits .f32 = 32 ∨ (Rect.block (s := S1024x512) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S512x512.size a
  hwx0_1 : ∀ i : grid0.Coords, EltTy.bits .f32 = 32 ∨ (Rect.block (s := S512x512) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S512.size a
  hwx0_2 : ∀ i : grid0.Coords, EltTy.bits .f32 = 32 ∨ (Rect.block (s := S512) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S1024x512.size a
  hwx0_3 : ∀ i : grid0.Coords, EltTy.bits .f32 = 32 ∨ (Rect.block (s := S1024x512) S128x128.size (cc0_transform_3 i) (hinb0_3 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x512 : Shape := ⟨2, ![1024, 512]⟩
abbrev S512x512 : Shape := ⟨2, ![512, 512]⟩
abbrev S512 : Shape := ⟨1, ![512]⟩
abbrev S1024x1x512 : Shape := ⟨3, ![1024, 1, 512]⟩
abbrev S1x512x512 : Shape := ⟨3, ![1, 512, 512]⟩
abbrev S1024x512x512 : Shape := ⟨3, ![1024, 512, 512]⟩
abbrev S_ : Shape := ⟨0, ![]⟩
abbrev S1x512 : Shape := ⟨2, ![1, 512]⟩

abbrev nBuf : Space → Nat
  | .hbm => 13
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S1024x1x512, .f32⟩
  | .hbm, ⟨4, _⟩ => ⟨S1x512x512, .f32⟩
  | .hbm, ⟨5, _⟩ => ⟨S1024x512x512, .f32⟩
  | .hbm, ⟨6, _⟩ => ⟨S1024x512x512, .f32⟩
  | .hbm, ⟨7, _⟩ => ⟨S1024x512x512, .f32⟩
  | .hbm, ⟨8, _⟩ => ⟨S_, .f32⟩
  | .hbm, ⟨9, _⟩ => ⟨S1024x512, .f32⟩
  | .hbm, ⟨10, _⟩ => ⟨S1x512, .f32⟩
  | .hbm, ⟨11, _⟩ => ⟨S1024x512, .f32⟩
  | .hbm, ⟨12, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S1024x512_S1024x1x512_0_2 : S1024x512.BroadcastsInDim S1024x1x512 (![0, 2] : Fin 2 → Fin S1024x1x512.rank)
  bcast_S512x512_S1x512x512_1_2 : S512x512.BroadcastsInDim S1x512x512 (![1, 2] : Fin 2 → Fin S1x512x512.rank)
  bcast_S1024x1x512_S1024x512x512_0_1_2 : S1024x1x512.BroadcastsInDim S1024x512x512 (![0, 1, 2] : Fin 3 → Fin S1024x512x512.rank)
  bcast_S1x512x512_S1024x512x512_0_1_2 : S1x512x512.BroadcastsInDim S1024x512x512 (![0, 1, 2] : Fin 3 → Fin S1024x512x512.rank)
  reducesTo_S1024x512x512_S1024x512_d2 : S1024x512x512.ReducesTo [2] S1024x512
  h_S_ : 0 < S_.numel
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)

variable [Facts₀]

class Facts : Prop extends Facts₀ where

variable [Facts]
-- ==== Proof.SupTiles.lean ====
/-
  The max-plus ("tropical") product with a bias, as one function of the three argument arrays, and the one
  lattice law the two programs differ by.

  For a row `r` of `x` and a row `o` of `w` write `f k = x[r, k] + w[o, k]` on the extended reals. The result
  at `(r, o)` is `max (⨆ k, f k) b[o]`. One program takes the supremum over all 512 indices `k` at once; the
  other accumulates it tile by tile: from `⊥`, four times `acc ← max acc (⨆ k' < 128, f (n + k'))` with
  `n = 0, 128, 256, 384`. Both are the same number because `max` is associative, commutative and has `⊥` as its
  identity: the supremum over the indices below `n + T` is the `max` of the supremum below `n` and the supremum
  over the next `T` indices (`supBelow_add_tile`). No finiteness is needed: `+` is applied to the same pairs on
  both sides, and only the order of the `max`es differs.
-/
import Idealize.ShloMosaic.PureOps.Ideal
import Idealize.ShloMosaic.Lib.ValueIdx

noncomputable section

namespace Cert.MaxPlus

open Idealize.ShloMosaic Idealize.ShloMosaic.ValueIdx

/-! ## The supremum over an initial segment of the indices -/

/-- The supremum of `f` over the indices `k < n`. -/
def supBelow {N : ℕ} (f : Fin N → EReal) (n : ℕ) : EReal :=
  (Finset.univ.filter fun k : Fin N => k.val < n).sup f

/-- Over no index the supremum is `⊥`. -/
theorem supBelow_zero {N : ℕ} (f : Fin N → EReal) : supBelow f 0 = ⊥ := by
  unfold supBelow
  rw [Finset.filter_false_of_mem (fun k _ => Nat.not_lt_zero k.val)]
  exact Finset.sup_empty

/-- Below the extent itself lies every index. -/
theorem supBelow_all {N : ℕ} (f : Fin N → EReal) : supBelow f N = Finset.univ.sup f := by
  unfold supBelow
  rw [Finset.filter_true_of_mem (fun k _ => k.isLt)]

/-- ONE TILE MORE: the supremum below `n + T` is the `max` of the supremum below `n` and the supremum over the
    `T` indices `n, …, n + T - 1`. -/
theorem supBelow_add_tile {N T : ℕ} (f : Fin N → EReal) (n : ℕ) (h : n + T ≤ N) :
    supBelow f (n + T)
      = max (supBelow f n) (Finset.univ.sup fun k' : Fin T => f ⟨n + k'.val, by have := k'.isLt; omega⟩) := by
  apply le_antisymm
  · refine Finset.sup_le fun k hk => ?_
    have hk' : k.val < n + T := (Finset.mem_filter.1 hk).2
    by_cases hlt : k.val < n
    · exact le_max_of_le_left (Finset.le_sup (f := f) (Finset.mem_filter.2 ⟨Finset.mem_univ _, hlt⟩))
    · refine le_max_of_le_right ?_
      have hk'' : k.val - n < T := by omega
      have e : k = ⟨n + (⟨k.val - n, hk''⟩ : Fin T).val, by have := k.isLt; simp only; omega⟩ :=
        Fin.ext (by simp only; omega)
      rw [e]
      exact Finset.le_sup (f := fun k' : Fin T => f ⟨n + k'.val, by have := k'.isLt; omega⟩) (Finset.mem_univ _)
  · refine max_le ?_ ?_
    · refine Finset.sup_mono fun k hk => ?_
      have hk' : k.val < n := (Finset.mem_filter.1 hk).2
      exact Finset.mem_filter.2 ⟨Finset.mem_univ _, by omega⟩
    · refine Finset.sup_le fun k' _ => ?_
      exact Finset.le_sup (f := f)
        (Finset.mem_filter.2 ⟨Finset.mem_univ _, by have := k'.isLt; show n + k'.val < n + T; omega⟩)

/-! ## The result as one function of the arguments -/

/-- The terms of the max-plus product at row `r` of `x` and row `o` of `w`. -/
def term (x : (⟨2, ![1024, 512]⟩ : Shape).Idx → EReal) (w : (⟨2, ![512, 512]⟩ : Shape).Idx → EReal)
    (r : Fin 1024) (o : Fin 512) : Fin 512 → EReal :=
  fun k => x (ix2 r k) + w (ix2 o k)

/-- The max-plus product of `x` with the rows of `w`, then the maximum with the bias:
    `out[r, o] = max (⨆ k, x[r, k] + w[o, k]) b[o]`. -/
def maxPlusBias (x : (⟨2, ![1024, 512]⟩ : Shape).Idx → EReal) (w : (⟨2, ![512, 512]⟩ : Shape).Idx → EReal)
    (b : (⟨1, ![512]⟩ : Shape).Idx → EReal) : (⟨2, ![1024, 512]⟩ : Shape).Idx → EReal :=
  fun i => max (Finset.univ.sup (term x w (i 0) (i 1))) (b (ix1 (i 1)))

/-- The pattern `0xFF800000`, f32's `-∞`, is the bottom of the extended reals. -/
theorem negInf_eq_bot : Ideal.ofBits .f32 0xFF800000#32 = (⊥ : EReal) := by
  simp [Ideal.ofBits, Ideal.ieee]

end Cert.MaxPlus

end
-- ==== Proof.Pieces.lean ====
/-
  What each control case of the body leaves behind, as values of the blocks it is given (at any float instance).

  At the first column tile (case A) the scratch is reset and then accumulated into, so it ends at the accumulating
  store's value over the reset block. At a middle tile (case B) and at the last tile (case C) it ends at the
  accumulating store's value over what the scratch held before. Only the last tile stores into the output block: the
  output store's value of the bias block and of the scratch as that same point has just left it.
-/
import proofs.«112733_j50062138802180_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic
open Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- First column tile: the scratch ends at the accumulating store's value over the reset block. -/
theorem scratch_first (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (hc0 : cond0_0 i) (hc1 : ¬cond0_1 i)
    (x0 x1 : Vec F S128x128 .f32) (x2 : Vec F S128 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S128x128) hz2, View.readCov_unit_zero (S := S128x128) _ hz2]
  simp only [View.readAt_eq_ld, harg3.read_unread, harg4.read_unread, View.ld_unit_zero (S := S128x128) hz2]

/-- A middle column tile: the scratch ends at the accumulating store's value over what it held. -/
theorem scratch_middle (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : ¬cond0_1 i)
    (x0 x1 : Vec F S128x128 .f32) (x2 : Vec F S128 .f32) (xs0 : Vec F S128x128 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz2]
  simp only [View.readAt_eq_ld, harg3.read_unread, harg4.read_unread, harg7.read_unread,
    View.ld_unit_zero (S := S128x128) hz2]

/-- The last column tile: the scratch likewise, -/
theorem scratch_last (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i)
    (x0 x1 : Vec F S128x128 .f32) (x2 : Vec F S128 .f32) (xs0 : Vec F S128x128 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg3.read_unread, harg4.read_unread, harg7.read_unread,
    View.ld_unit_zero (S := S128x128) hz2]

/-- and the output block at the output store's value of the bias block and of the scratch just written. -/
theorem output_last (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i)
    (x0 x1 : Vec F S128x128 .f32) (x2 : Vec F S128 .f32) (xs0 : Vec F S128x128 .f32) :
    out0_C_3 c i arg3 harg3 arg4 harg4 arg5 harg5 arg6 harg6 arg7 harg7 hc0 hc1 x0 x1 x2 xs0 = k0_pay3 x2 (k0_pay2 x0 x1 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg3.read_unread, harg4.read_unread, harg5.read_unread, harg7.read_unread,
    View.readCov_unit_zero (S := S128x128) _ hz2, View.ld_unit_zero (S := S128x128) hz2,
    View.ld_unit_zero (S := S128) hz1]

end Cert.KernelIdeal.Pieces

end
-- ==== Proof.Payloads.lean ====
/-
  The body's three stored values, read at one element over the extended reals.

  The reset block is `⊥` everywhere. The accumulating store holds, at `(p, o)`, the `max` of what the scratch held
  there and the supremum over the tile's 128 columns `k` of `x[p, k] + w[o, k]` (the two blocks are cast to
  `[128, 1, 128]` and `[1, 128, 128]`, broadcast to `[128, 128, 128]`, added, and reduced by `max` from `-∞` along
  the last axis). The output store holds the `max` of the scratch at `(p, o)` and the bias at `o`.
-/
import proofs.«112733_j50062138802180_1_alg».proof.Proof.Gen.KernelIdeal.Skeleton
import proofs.«112733_j50062138802180_1_alg».proof.Proof.SupTiles
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The reset block is `⊥` at every element. -/
theorem reset_apply (j : S128x128.Idx) : k0_pay1 (F := Ideal) j = (⊥ : EReal) := by
  unfold k0_pay1
  rw [shapeCast_self]
  exact Cert.MaxPlus.negInf_eq_bot

/-- A `[128, 128]` block cast to `[128, 1, 128]` and broadcast along the middle axis, at `(p, o, k)`: the block at
    `(p, k)`. -/
theorem rows_apply (x : FVec Ideal S128x128 .f32) (p o k : Fin 128) :
    broadcastTo S128x128x128 (shapeCast S128x1x128 x shapeCasts_S128x128_S128x1x128) broadcasts_S128x1x128_S128x128x128
      (ix3 p o k) = x (ix2 p k) := by
  rw [broadcastTo_apply _ _ _ (ix3 p (0 : Fin 1) k) (fun a => by
    match a with
    | ⟨0, _⟩ => show p.val = if (128 : Nat) = 1 then 0 else p.val; rw [if_neg (by decide)]
    | ⟨1, _⟩ => show (0 : Nat) = if (1 : Nat) = 1 then 0 else o.val; rw [if_pos rfl]
    | ⟨2, _⟩ => show k.val = if (128 : Nat) = 1 then 0 else k.val; rw [if_neg (by decide)])]
  exact shapeCast_apply _ _ _ (ix2 p k) (by
    rw [Shape.rowMajor_val_two, Shape.rowMajor_val_three]
    show p.val * 128 + k.val = (p.val * 1 + 0) * 128 + k.val
    omega)

/-- A `[128, 128]` block cast to `[1, 128, 128]` and broadcast along the first axis, at `(p, o, k)`: the block at
    `(o, k)`. -/
theorem cols_apply (w : FVec Ideal S128x128 .f32) (p o k : Fin 128) :
    broadcastTo S128x128x128 (shapeCast S1x128x128 w shapeCasts_S128x128_S1x128x128) broadcasts_S1x128x128_S128x128x128
      (ix3 p o k) = w (ix2 o k) := by
  rw [broadcastTo_apply _ _ _ (ix3 (0 : Fin 1) o k) (fun a => by
    match a with
    | ⟨0, _⟩ => show (0 : Nat) = if (1 : Nat) = 1 then 0 else p.val; rw [if_pos rfl]
    | ⟨1, _⟩ => show o.val = if (128 : Nat) = 1 then 0 else o.val; rw [if_neg (by decide)]
    | ⟨2, _⟩ => show k.val = if (128 : Nat) = 1 then 0 else k.val; rw [if_neg (by decide)])]
  exact shapeCast_apply _ _ _ (ix2 o k) (by
    rw [Shape.rowMajor_val_two, Shape.rowMajor_val_three]
    show o.val * 128 + k.val = (0 * 128 + o.val) * 128 + k.val
    omega)

/-- The `max`-reduction of a `[128, 128, 128]` array from `-∞` along its last axis, at `(p, o)`: the supremum over
    the last coordinate. -/
theorem tile_max (src : FVec Ideal S128x128x128 .f32) (hφ : FKind.Formats .f32)
    (hacc : (0xFF800000#32 : BitVec 32) = FKind.maximumf.neutral .f32 hφ) (p o : Fin 128) :
    multiReduction .maximumf [2] S128x128 src 0xFF800000#32 reduces_S128x128x128_S128x128 hφ hacc (ix2 p o)
      = Finset.univ.sup fun k : Fin 128 => src (ix3 p o k) := by
  rw [Ideal.multiReduction_maximumf_single]
  rw [show FloatOps.ofBits (F := Ideal) .f32 0xFF800000#32 = (⊥ : EReal) from Cert.MaxPlus.negInf_eq_bot]
  refine Finset.sup_congr rfl fun k _ => ?_
  show src (reduces_S128x128x128_S128x128.lift (ix2 p o) k) = src (ix3 p o k)
  exact congrArg src (funext fun a => by match a with | ⟨0, _⟩ => rfl | ⟨1, _⟩ => rfl | ⟨2, _⟩ => rfl)

/-- The accumulating store at `(p, o)`: the `max` of the scratch there and the tile's supremum of `x[p, k] + w[o, k]`. -/
theorem accumulate_apply (x w acc : FVec Ideal S128x128 .f32) (p o : Fin 128) :
    k0_pay2 (F := Ideal) x w acc (ix2 p o)
      = max (acc (ix2 p o)) (Finset.univ.sup fun k : Fin 128 => x (ix2 p k) + w (ix2 o k)) := by
  unfold k0_pay2
  dsimp only
  rw [shapeCast_self, maximumf_apply]
  refine congrArg (max (acc (ix2 p o))) ?_
  refine (tile_max _ _ _ p o).trans ?_
  refine Finset.sup_congr rfl fun k _ => ?_
  rw [addf_apply, rows_apply, cols_apply]

/-- The output store at `(p, o)`: the `max` of the scratch there and the bias at `o`. -/
theorem output_apply (b : FVec Ideal S128 .f32) (acc : FVec Ideal S128x128 .f32) (p o : Fin 128) :
    k0_pay3 (F := Ideal) b acc (ix2 p o) = max (acc (ix2 p o)) (b (ix1 o)) := by
  unfold k0_pay3
  rw [maximumf_apply]
  refine congrArg (max (acc (ix2 p o))) ?_
  rw [broadcastTo_apply _ _ _ (ix2 (0 : Fin 1) o) (fun a => by
    match a with
    | ⟨0, _⟩ => show (0 : Nat) = if (1 : Nat) = 1 then 0 else p.val; rw [if_pos rfl]
    | ⟨1, _⟩ => show o.val = if (128 : Nat) = 1 then 0 else o.val; rw [if_neg (by decide)])]
  exact shapeCast_apply _ _ _ (ix1 o) (by
    rw [Shape.rowMajor_val_one, Shape.rowMajor_val_two]
    show o.val = 0 * 128 + o.val
    omega)

end Cert.KernelIdeal.Payload

end
-- ==== Proof.TileValue.lean ====
/-
  What the idealized kernel's result array holds after the run: the max-plus product with the bias.

  The grid is 8 × 4 × 4; point `t` has row tile `t / 16`, output-column tile `t / 4 % 4` and reduction tile `t % 4`
  (the last axis moves fastest). At point `t` the body sees rows `128·(t/16) + p` of `x` and rows `128·(t/4%4) + o`
  of `w`, both at columns `128·(t%4) + k`, and the bias at `128·(t/4%4) + o`.

  The invariant of the carried scratch: after point `t` it holds at `(p, o)` the supremum of
  `x[R, k] + w[O, k]` over the columns `k < 128·(t%4 + 1)`, where `R` and `O` are the rows above. It is proved by
  induction on the point: a point with `t % 4 = 0` starts again from `⊥`, every other point adds one tile to what the
  point before left (`supBelow_add_tile`), and the point before has the same `R` and `O`. At `t % 4 = 3` all 512 columns
  are in, the body stores the `max` with the bias into the output block, and that block is written back to rows
  `128·(t/16) + p`, columns `128·(t/4%4) + o` of the result. Those blocks tile the result array.
-/
import proofs.«112733_j50062138802180_1_alg».proof.Proof.Gen.KernelIdeal.Value
import proofs.«112733_j50062138802180_1_alg».proof.Proof.Pieces
import proofs.«112733_j50062138802180_1_alg».proof.Proof.Payloads
import proofs.«112733_j50062138802180_1_alg».proof.Proof.SupTiles
import Idealize.ShloMosaic.Lib.Pipeline.Value
import Idealize.ShloMosaic.Lib.ValueIdx

noncomputable section

namespace Cert.KernelIdeal.TileValue

open Cert.KernelIdeal Cert.KernelIdeal.Gen Idealize.ShloMosaic Idealize.ShloMosaic.TcCoe Idealize.ShloMosaic.ValueIdx
open Idealize.SL.Sem
open Idealize.ShloMosaic.Pipeline (Dat)
open Cert.MaxPlus

variable (m : (ℓ : Loc nD τ sig) → Buf (Elt Ideal) ℓ) (ρ : Dev nD → PrngReg)

/-! ## Names of literal type for the arrays and the blocks -/

/-- The three argument arrays as the region finds them. -/
abbrev xarr (c : Dev nD) : FVec Ideal S1024x512 .f32 := V m c main_arg0
abbrev warr (c : Dev nD) : FVec Ideal S512x512 .f32 := V m c main_arg1
abbrev barr (c : Dev nD) : FVec Ideal S512 .f32 := V m c main_arg2

/-- The three input blocks at a point. -/
abbrev xblk (c : Dev nD) (t : Fin cfg0.N) : FVec Ideal S128x128 .f32 := iblk m c 0 t
abbrev wblk (c : Dev nD) (t : Fin cfg0.N) : FVec Ideal S128x128 .f32 := iblk m c 1 t
abbrev bblk (c : Dev nD) (t : Fin cfg0.N) : FVec Ideal S128 .f32 := iblk m c 2 t

/-! ## Where a point's blocks sit -/

/-- The four index maps in closed form, decided over the grid. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 1) = t.val / 4 % 4
    ∧ win0_3.index t (0 : Fin 2) = t.val / 16 ∧ win0_3.index t (1 : Fin 2) = t.val / 4 % 4 :=
  (by decide +kernel : ∀ t : Fin grid0.N, _)

/-- The block of `x` at `(p, k)` is `x` at row `128·(t/16) + p`, column `128·(t%4) + k`. -/
theorem xblk_apply (c : Dev nD) (t : Fin cfg0.N) (p k : Fin 128) (R : Fin 1024) (K : Fin 512)
    (hR : R.val = 128 * (t.val / 16) + p.val) (hK : K.val = 128 * (t.val % 4) + k.val) :
    xblk m c t (ix2 p k) = xarr m c (ix2 R K) := by
  obtain ⟨e0, e1, -⟩ := idx_facts t
  show iblk m c 0 t (ix2 p k) = V m c main_arg0 (ix2 R K)
  unfold iblk
  rw [View.read_apply]
  show V m c main_arg0 _ = V m c main_arg0 _
  congr 1
  funext a
  apply Fin.ext
  match a with
  | ⟨0, _⟩ => show win0_0.index t (0 : Fin 2) * 128 + 1 * p.val = R.val; omega
  | ⟨1, _⟩ => show win0_0.index t (1 : Fin 2) * 128 + 1 * k.val = K.val; omega

/-- The block of `w` at `(o, k)` is `w` at row `128·(t/4%4) + o`, column `128·(t%4) + k`. -/
theorem wblk_apply (c : Dev nD) (t : Fin cfg0.N) (o k : Fin 128) (O K : Fin 512)
    (hO : O.val = 128 * (t.val / 4 % 4) + o.val) (hK : K.val = 128 * (t.val % 4) + k.val) :
    wblk m c t (ix2 o k) = warr m c (ix2 O K) := by
  obtain ⟨-, -, e2, e3, -⟩ := idx_facts t
  show iblk m c 1 t (ix2 o k) = V m c main_arg1 (ix2 O K)
  unfold iblk
  rw [View.read_apply]
  show V m c main_arg1 _ = V m c main_arg1 _
  congr 1
  funext a
  apply Fin.ext
  match a with
  | ⟨0, _⟩ => show win0_1.index t (0 : Fin 2) * 128 + 1 * o.val = O.val; omega
  | ⟨1, _⟩ => show win0_1.index t (1 : Fin 2) * 128 + 1 * k.val = K.val; omega

/-- The block of the bias at `o` is the bias at `128·(t/4%4) + o`. -/
theorem bblk_apply (c : Dev nD) (t : Fin cfg0.N) (o : Fin 128) (O : Fin 512)
    (hO : O.val = 128 * (t.val / 4 % 4) + o.val) :
    bblk m c t (ix1 o) = barr m c (ix1 O) := by
  obtain ⟨-, -, -, -, e4, -⟩ := idx_facts t
  show iblk m c 2 t (ix1 o) = V m c main_arg2 (ix1 O)
  unfold iblk
  rw [View.read_apply]
  show V m c main_arg2 _ = V m c main_arg2 _
  congr 1
  funext a
  apply Fin.ext
  match a with
  | ⟨0, _⟩ => show win0_2.index t (0 : Fin 1) * 128 + 1 * o.val = O.val; omega

/-! ## The cases' values at a point -/

/-- At a point with `t % 4 = 0` the scratch ends at the accumulating store's value over the reset block. -/
theorem scratch_at_first (c : Dev nD) (t : Fin cfg0.N) (h0 : t.val % 4 = 0) (h1 : ¬t.val % 4 = 3) :
    (outsAt0 m c t.val t.isLt).2 = k0_pay2 (F := Ideal) (xblk m c t) (wblk m c t) (k0_pay1 (F := Ideal)) := by
  rw [outsAt0_A m c t h0 h1]
  dsimp only
  exact Pieces.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- At a point with `t % 4 = 1, 2`: over what the point before left. -/
theorem scratch_at_middle (c : Dev nD) (t : Fin cfg0.N) (h0 : ¬t.val % 4 = 0) (h1 : ¬t.val % 4 = 3) :
    (outsAt0 m c t.val t.isLt).2
      = k0_pay2 (F := Ideal) (xblk m c t) (wblk m c t) (outsAt0 m c (t.val - 1) (Nat.lt_of_le_of_lt (Nat.sub_le _ _) t.isLt)).2 := by
  rw [outsAt0_B m c t h0 h1]
  dsimp only
  exact Pieces.scratch_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
    (iblk m c 0 t) (iblk m c 1 t) (iblk m c 2 t) (outsAt0 m c (t.val - 1) (Nat.lt_of_le_of_lt (Nat.sub_le _ _) t.isLt)).2

/-- At a point with `t % 4 = 3`: likewise, -/
theorem scratch_at_last (c : Dev nD) (t : Fin cfg0.N) (h0 : ¬t.val % 4 = 0) (h1 : t.val % 4 = 3) :
    (outsAt0 m c t.val t.isLt).2
      = k0_pay2 (F := Ideal) (xblk m c t) (wblk m c t) (outsAt0 m c (t.val - 1) (Nat.lt_of_le_of_lt (Nat.sub_le _ _) t.isLt)).2 := by
  rw [outsAt0_C m c t h0 h1]
  dsimp only
  exact Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

/-- and the output block is the output store's value of the bias block and of the scratch as this point leaves it. -/
theorem output_at_last (c : Dev nD) (t : Fin cfg0.N) (h0 : ¬t.val % 4 = 0) (h1 : t.val % 4 = 3) :
    (outsAt0 m c t.val t.isLt).1 = k0_pay3 (F := Ideal) (bblk m c t) (outsAt0 m c t.val t.isLt).2 := by
  rw [scratch_at_last m c t h0 h1, outsAt0_C m c t h0 h1]
  dsimp only
  exact Pieces.output_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

/-! ## The invariant of the carried scratch -/

/-- The tile's supremum at point `n`, in the arrays' own indices: the terms at the columns `128·(n%4) + k`. -/
theorem tile_sup (c : Dev nD) (n : ℕ) (h : n < cfg0.N) (p o : Fin 128) (R : Fin 1024) (O : Fin 512)
    (hR : R.val = 128 * (n / 16) + p.val) (hO : O.val = 128 * (n / 4 % 4) + o.val) :
    (Finset.univ.sup fun k : Fin 128 => xblk m c ⟨n, h⟩ (ix2 p k) + wblk m c ⟨n, h⟩ (ix2 o k))
      = Finset.univ.sup fun k : Fin 128 =>
          term (xarr m c) (warr m c) R O ⟨128 * (n % 4) + k.val, by have := k.isLt; omega⟩ := by
  refine Finset.sup_congr rfl fun k _ => ?_
  rw [xblk_apply m c ⟨n, h⟩ p k R ⟨128 * (n % 4) + k.val, by have := k.isLt; omega⟩ hR rfl,
    wblk_apply m c ⟨n, h⟩ o k O ⟨128 * (n % 4) + k.val, by have := k.isLt; omega⟩ hO rfl]
  rfl

/-- Below no column the supremum is `⊥`, whatever spells the zero. -/
theorem supBelow_of_eq_zero (f : Fin 512 → EReal) (n : ℕ) (hn : n = 0) : supBelow f n = ⊥ := by
  subst hn; exact supBelow_zero f

/-- Equal bounds, equal suprema. -/
theorem supBelow_congr (f : Fin 512 → EReal) (n n' : ℕ) (hn : n = n') : supBelow f n = supBelow f n' := by
  subst hn; rfl

/-- THE INVARIANT: after point `n` the scratch holds at `(p, o)` the supremum of `x[R, k] + w[O, k]` over the
    columns `k < 128·(n%4 + 1)`, for the rows `R = 128·(n/16) + p` and `O = 128·(n/4%4) + o`. -/
theorem scratch_after (c : Dev nD) (n : ℕ) : ∀ (h : n < cfg0.N) (p o : Fin 128) (R : Fin 1024) (O : Fin 512),
    R.val = 128 * (n / 16) + p.val → O.val = 128 * (n / 4 % 4) + o.val →
    (outsAt0 m c n h).2 (ix2 p o) = supBelow (term (xarr m c) (warr m c) R O) (128 * (n % 4 + 1)) := by
  induction n using Nat.strong_induction_on with
  | _ n ih =>
    intro h p o R O hR hO
    have hN : n < 128 := lt_of_lt_of_eq h (show cfg0.N = 128 from N_0)
    have hle : 128 * (n % 4) + 128 ≤ 512 := by omega
    rw [supBelow_congr _ (128 * (n % 4 + 1)) (128 * (n % 4) + 128) (by omega), supBelow_add_tile _ _ hle,
      ← tile_sup m c n h p o R O hR hO]
    by_cases h0 : n % 4 = 0
    · have h1 : ¬n % 4 = 3 := by omega
      rw [show (outsAt0 m c n h).2 = _ from scratch_at_first m c ⟨n, h⟩ h0 h1, Payload.accumulate_apply,
        Payload.reset_apply, supBelow_of_eq_zero _ _ (by omega)]
    · have hprev : n - 1 < cfg0.N := Nat.lt_of_le_of_lt (Nat.sub_le _ _) h
      have hih := ih (n - 1) (by omega) hprev p o R O (by omega) (by omega)
      rw [supBelow_congr _ (128 * ((n - 1) % 4 + 1)) (128 * (n % 4)) (by omega)] at hih
      by_cases h1 : n % 4 = 3
      · rw [show (outsAt0 m c n h).2 = _ from scratch_at_last m c ⟨n, h⟩ h0 h1, Payload.accumulate_apply]
        exact congrArg (fun z => max z _) hih
      · rw [show (outsAt0 m c n h).2 = _ from scratch_at_middle m c ⟨n, h⟩ h0 h1, Payload.accumulate_apply]
        exact congrArg (fun z => max z _) hih

/-! ## From the blocks to the array -/

/-- The result: the max-plus product of the arguments as the region finds them, with the bias. -/
abbrev result (c : Dev nD) : Buf (Elt Ideal) ((c : Thread nD τ).loc main_v0) :=
  maxPlusBias (xarr m c) (warr m c) (barr m c)

/-- At a point with `t % 4 = 3` the output block at `j` is the result at any index `I` with row
    `128·(t/16) + j₀` and column `128·(t/4%4) + j₁`. -/
theorem output_apply (c : Dev nD) (t : Fin cfg0.N) (h1 : t.val % 4 = 3) (j : S128x128.Idx) (I : S1024x512.Idx)
    (hR : (I 0).val = 128 * (t.val / 16) + (j 0).val) (hO : (I 1).val = 128 * (t.val / 4 % 4) + (j 1).val) :
    (outsAt0 m c t.val t.isLt).1 j = result m c I := by
  have h0 : ¬t.val % 4 = 0 := by omega
  obtain ⟨p, o, rfl⟩ : ∃ (p o : Fin 128), j = ix2 p o := ⟨j 0, j 1, eq_ix2 j⟩
  rw [output_at_last m c t h0 h1, Payload.output_apply,
    scratch_after m c t.val t.isLt p o (I 0) (I 1) hR hO,
    supBelow_congr _ (128 * (t.val % 4 + 1)) 512 (by omega), supBelow_all,
    bblk_apply m c t o (I 1) hO]
  rfl

/-- What a flushing point writes back is its block of the result. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  obtain ⟨-, -, -, -, -, e5, e6⟩ := idx_facts t
  rw [Value.flushed3]
  funext j
  show (outsAt0 m c t.val t.isLt).1 j = result m c (((cfg0.win 3).blk t).view.emb j)
  refine output_apply m c t h1 j _ ?_ ?_
  · show win0_3.index t (0 : Fin 2) * 128 + 1 * (j 0).val = _; omega
  · show win0_3.index t (1 : Fin 2) * 128 + 1 * (j 1).val = _; omega

/-- An index of the result array is in point `t`'s block iff each coordinate is in the block's range on its axis. -/
theorem mem_blk (t : Fin cfg0.N) (i : S1024x512.Idx) :
    i ∈ ((cfg0.win 3).blk t).view.set ↔ ∀ a : Fin 2, win0_3.index t a * S128x128.size a ≤ (i a).val
      ∧ (i a).val < win0_3.index t a * S128x128.size a + S128x128.size a := by
  show i ∈ ((View.whole main_v0).slice (win0_3.rect t)).set ↔ _
  rw [View.set_slice_whole, Rect.mem_set_unit]
  exact Iff.rfl

/-- Every index of the result array is in the block of a flushing point: row tile `i₀ / 128`, column tile `i₁ / 128`,
    last reduction tile. -/
theorem covered (i : S1024x512.Idx) :
    ∃ t : Fin cfg0.N, (cfg0.win 3).flush t = true ∧ i ∈ ((cfg0.win 3).blk t).view.set := by
  have hi0 : (i 0).val < 1024 := (i 0).isLt
  have hi1 : (i 1).val < 512 := (i 1).isLt
  have hN : cfg0.N = 128 := N_0
  refine ⟨⟨16 * ((i 0).val / 128) + 4 * ((i 1).val / 128) + 3, by omega⟩, (flush0_3 _).mpr (by show (16 * ((i 0).val / 128) + 4 * ((i 1).val / 128) + 3) % 4 = 3; omega), ?_⟩
  obtain ⟨-, -, -, -, -, e5, e6⟩ := idx_facts ⟨16 * ((i 0).val / 128) + 4 * ((i 1).val / 128) + 3, by omega⟩
  rw [mem_blk]
  intro a
  match a with
  | ⟨0, _⟩ =>
    show win0_3.index _ (0 : Fin 2) * 128 ≤ (i 0).val ∧ (i 0).val < win0_3.index _ (0 : Fin 2) * 128 + 128
    rw [e5]; dsimp only; omega
  | ⟨1, _⟩ =>
    show win0_3.index _ (1 : Fin 2) * 128 ≤ (i 1).val ∧ (i 1).val < win0_3.index _ (1 : Fin 2) * 128 + 128
    rw [e6]; dsimp only; omega

/-- So the result array ends holding the max-plus product with the bias. -/
theorem final (c : Dev nD) : (dats m 0 c).arrAt 3 cfg0.N = result m c :=
  (dats m 0 c).arrAt_eq_of_cover 3 (result m c) (flushed_eq m c) covered

/-- The run, read: the result array at that function of the arguments, the arguments unchanged. -/
theorem run : θ_run defs (onTc (τ := τ) (main (F := Ideal))) ⟨m, fun _ => 0, ρ⟩ fun r => ∀ c : Dev nD,
      r.2.mem ((c : Thread nD τ).loc main_v0)
        = maxPlusBias (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.TileValue

end
-- ==== Proof.RefValue.lean ====
/-
  The reference's result, read at one element, is the max-plus product with the bias.

  At `(r, o)` the host's `reduce` of `max` from `-∞` along the last axis of the `[1024, 512, 512]` array of sums is
  the supremum over `k` of `x[r, k] + w[o, k]` (the two broadcasts read `x` at `(r, k)` and `w` at `(o, k)`), and
  the final `maximum` takes the bias, broadcast down the rows, at `o`.
-/
import proofs.«112733_j50062138802180_1_alg».proof.Proof.Gen.ReferenceIdeal.Read
import proofs.«112733_j50062138802180_1_alg».proof.Proof.SupTiles
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The reduced axis is the last of three. -/
theorem reduces : S1024x512x512.Reduces [2] S1024x512 := by decide

/-- The array of sums at `(r, o, k)` is `x[r, k] + w[o, k]`. -/
theorem sums_apply (x : FVec Ideal S1024x512 .f32) (w : FVec Ideal S512x512 .f32) (r : Fin 1024) (o k : Fin 512) :
    val_main_v4 (F := Ideal) x w (ix3 r o k) = x (ix2 r k) + w (ix2 o k) := by
  rw [val_main_v4_apply, val_main_v2_apply, val_main_v0_apply, val_main_v3_apply, val_main_v1_apply]
  show x _ + w _ = _
  congr 2
  · funext a; match a with | ⟨0, _⟩ => rfl | ⟨1, _⟩ => rfl
  · funext a; match a with | ⟨0, _⟩ => rfl | ⟨1, _⟩ => rfl

/-- The reference's result is the max-plus product of `x` with the rows of `w`, then the maximum with the bias. -/
theorem result_eq (x : FVec Ideal S1024x512 .f32) (w : FVec Ideal S512x512 .f32) (b : FVec Ideal S512 .f32) :
    val_main_v8 (F := Ideal) x w b = Cert.MaxPlus.maxPlusBias x w b := by
  funext i
  obtain ⟨r, o, rfl⟩ : ∃ (r : Fin 1024) (o : Fin 512), i = ix2 r o := ⟨i 0, i 1, eq_ix2 i⟩
  rw [val_main_v8_apply, val_main_v7_apply, val_main_v6_apply]
  unfold val_main_v5
  rw [Host.reduce_eq_fold_single FloatOps.maximumf _ _ reducesTo_S1024x512x512_S1024x512_d2 reduces h_S_ (ix2 r o)]
  show max ((Finset.univ : Finset (Fin 512)).fold max (Ideal.ofBits .f32 0xFF800000#32) _) (b _)
    = max (Finset.univ.sup (Cert.MaxPlus.term x w r o)) (b (ix1 o))
  rw [Cert.MaxPlus.negInf_eq_bot]
  congr 1
  · show (Finset.univ : Finset (Fin 512)).sup _ = _
    congr 1
    funext k
    show val_main_v4 (F := Ideal) x w (reduces.lift (ix2 r o) k) = _
    rw [show reduces.lift (ix2 r o) k = ix3 r o k from
      funext fun a => by match a with | ⟨0, _⟩ => rfl | ⟨1, _⟩ => rfl | ⟨2, _⟩ => rfl]
    exact sums_apply x w r o k
  · congr 1
    funext a; match a with | ⟨0, _⟩ => rfl

end Cert.ReferenceIdeal.RefValue

end
-- ==== Proof.lean ====
/- The max-plus ("tropical") product with a bias, `out[r, o] = max (⨆ k, x[r, k] + w[o, k]) b[o]` over the extended
   reals, computed two ways.

   The kernel walks an 8 × 4 × 4 grid; for each 128 × 128 output block it accumulates the supremum over the 512
   columns in four tiles of 128 in a scratch block (reset to `-∞` at the first tile), and at the last tile stores the
   `max` with the bias. The reference adds the two broadcast arrays, reduces by `max` from `-∞` along the last axis,
   and takes the `max` with the broadcast bias. The two agree because the supremum over 512 indices is the `max` of
   the suprema over its four tiles (Proof/SupTiles.lean); the same sums are formed on both sides and only the
   order of the `max`es differs, so the inputs' finiteness is not used.

   Proof/Payloads.lean reads the body's three stored values at an element; Proof/Pieces.lean says what each control
   case of the body leaves behind; Proof/TileValue.lean proves the scratch's invariant over the grid points and that
   the written-back blocks tile the result; Proof/RefValue.lean reads the reference's result at an element. The
   idealization rewrote nothing, so that claim is `True`. -/
import proofs.«112733_j50062138802180_1_alg».proof.Defs
import proofs.«112733_j50062138802180_1_alg».proof.Proof.Gen.Kernel
import proofs.«112733_j50062138802180_1_alg».proof.Proof.Gen.Kernel.Skeleton
import proofs.«112733_j50062138802180_1_alg».proof.Proof.Gen.Kernel.Launch
import proofs.«112733_j50062138802180_1_alg».proof.Proof.Gen.Kernel.Points
import proofs.«112733_j50062138802180_1_alg».proof.Proof.Gen.Kernel.Frame
import proofs.«112733_j50062138802180_1_alg».proof.Proof.Gen.KernelIdeal
import proofs.«112733_j50062138802180_1_alg».proof.Proof.Gen.KernelIdeal.Skeleton
import proofs.«112733_j50062138802180_1_alg».proof.Proof.Gen.KernelIdeal.Launch
import proofs.«112733_j50062138802180_1_alg».proof.Proof.Gen.KernelIdeal.Points
import proofs.«112733_j50062138802180_1_alg».proof.Proof.Gen.KernelIdeal.Frame
import proofs.«112733_j50062138802180_1_alg».proof.Proof.Gen.ReferenceIdeal
import proofs.«112733_j50062138802180_1_alg».proof.Proof.Gen.Pre_finite_inputs
import proofs.«112733_j50062138802180_1_alg».proof.Proof.Gen.KernelIdeal.Value
import proofs.«112733_j50062138802180_1_alg».proof.Proof.Gen.ReferenceIdeal.Run
import proofs.«112733_j50062138802180_1_alg».proof.Proof.Gen.ReferenceIdeal.Read
import proofs.«112733_j50062138802180_1_alg».proof.Proof.SupTiles
import proofs.«112733_j50062138802180_1_alg».proof.Proof.TileValue
import proofs.«112733_j50062138802180_1_alg».proof.Proof.RefValue
import Idealize.ShloMosaic.Adequacy
import Idealize.ShloMosaic.Init

noncomputable section

namespace Cert.Proof

open Idealize.ShloMosaic Idealize.SL.Sem Cert.Kernel

/-- Both idealized programs end with the max-plus product, with the bias, of arguments that agree. -/
theorem algebraic : Cert.algebraic_KernelIdeal_ReferenceIdeal := by
  intro m ρ m' ρ' _ hagree
  refine ⟨_, Cert.KernelIdeal.TileValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.Value.run (F := Ideal) m ρ),
  trivial,
  algebraic⟩

end Cert.Proof

end
